-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x256 : Shape := ⟨3, ![64, 2048, 256]⟩
abbrev S1x64x1 : Shape := ⟨3, ![1, 64, 1]⟩
abbrev S64 : Shape := ⟨1, ![64]⟩
abbrev S64x256x256 : Shape := ⟨3, ![64, 256, 256]⟩
abbrev S32x256 : Shape := ⟨2, ![32, 256]⟩
abbrev S_ : Shape := ⟨0, ![]⟩

class Facts : Prop where
  bcast_S_S64x2048x256 : S_.BroadcastsInDim S64x2048x256 (![] : Fin 0 → Fin S64x2048x256.rank)
  reducesTo_S64x2048x256_S_d0_1_2 : S64x2048x256.ReducesTo [0, 1, 2] S_
  h_S_ : 0 < S_.numel
  bcast_S_S1x64x1 : S_.BroadcastsInDim S1x64x1 (![] : Fin 0 → Fin S1x64x1.rank)
  reducesTo_S1x64x1_S_d0_1_2 : S1x64x1.ReducesTo [0, 1, 2] S_
  bcast_S_S64x256x256 : S_.BroadcastsInDim S64x256x256 (![] : Fin 0 → Fin S64x256x256.rank)
  reducesTo_S64x256x256_S_d0_1_2 : S64x256x256.ReducesTo [0, 1, 2] S_
  bcast_S_S32x256 : S_.BroadcastsInDim S32x256 (![] : Fin 0 → Fin S32x256.rank)
  reducesTo_S32x256_S_d0_1 : S32x256.ReducesTo [0, 1] S_
  bcast_S_S64 : S_.BroadcastsInDim S64 (![] : Fin 0 → Fin S64.rank)
  reducesTo_S64_S_d0 : S64.ReducesTo [0] S_
  shapeCasts_S1x64x1_S64 : S1x64x1.ShapeCasts S64

variable [Facts]

def fn_part1 {F : FTy → Type} [FloatOps F] (main_arg1 : FVec F S1x64x1 .f32) (main_arg2 : IVec S64 32) (main_v13 : IVec S_ 1) (main_v16 : IVec S32x256 1) : IVec S_ 1 :=
  let main_c_5 : IVec S_ 1 := constantI S_ 1 1#1
  let main_v17 : IVec S_ 1 := (fun x v => Host.reduce IntOp.andi x v reducesTo_S32x256_S_d0_1 h_S_) main_v16 main_c_5
  let main_v18 : IVec S_ 1 := andi main_v13 main_v17
  let main_c_6 : IVec S_ 32 := constantI S_ 32 0#32
  let main_v19 : IVec S64 32 := broadcastInDim S64 ![] bcast_S_S64 main_c_6
  let main_v20 : IVec S64 1 := cmpi .sge main_arg2 main_v19
  let main_c_7 : IVec S_ 1 := constantI S_ 1 1#1
  let main_v21 : IVec S_ 1 := (fun x v => Host.reduce IntOp.andi x v reducesTo_S64_S_d0 h_S_) main_v20 main_c_7
  let main_v22 : IVec S_ 1 := andi main_v18 main_v21
  let main_v23 : FVec F S64 .f32 := shapeCast S64 main_arg1 shapeCasts_S1x64x1_S64
  let main_cst_8 : FVec F S_ .f32 := constant S_ .f32 0x41F80000#32
  let main_v24 : FVec F S64 .f32 := broadcastInDim S64 ![] bcast_S_S64 main_cst_8
  let main_v25 : FVec F S64 .f32 := mulf main_v23 main_v24
  let main_v26 : IVec S64 32 := fptosi 32 main_v25
  let main_c_9 : IVec S_ 32 := constantI S_ 32 0#32
  let main_v27 : IVec S64 32 := broadcastInDim S64 ![] bcast_S_S64 main_c_9
  let main_v28 : IVec S64 1 := cmpi .sge main_v26 main_v27
  let main_c_10 : IVec S_ 1 := constantI S_ 1 1#1
  let main_v29 : IVec S_ 1 := (fun x v => Host.reduce IntOp.andi x v reducesTo_S64_S_d0 h_S_) main_v28 main_c_10
  let main_v30 : IVec S_ 1 := andi main_v22 main_v29
  main_v30

def fn {F : FTy → Type} [FloatOps F] (main_arg0 : FVec F S64x2048x256 .f32) (main_arg1 : FVec F S1x64x1 .f32) (main_arg2 : IVec S64 32) (main_arg3 : FVec F S64x256x256 .f32) (main_arg4 : FVec F S32x256 .f32) : IVec S_ 1 :=
  let main_v0 : FVec F S64x2048x256 .f32 := Host.absf main_arg0
  let main_cst : FVec F S_ .f32 := constant S_ .f32 0x7F800000#32
  let main_v1 : FVec F S64x2048x256 .f32 := broadcastInDim S64x2048x256 ![] bcast_S_S64x2048x256 main_cst
  let main_v2 : IVec S64x2048x256 1 := cmpf .olt main_v0 main_v1
  let main_c : IVec S_ 1 := constantI S_ 1 1#1
  let main_v3 : IVec S_ 1 := (fun x v => Host.reduce IntOp.andi x v reducesTo_S64x2048x256_S_d0_1_2 h_S_) main_v2 main_c
  let main_v4 : FVec F S1x64x1 .f32 := Host.absf main_arg1
  let main_cst_0 : FVec F S_ .f32 := constant S_ .f32 0x7F800000#32
  let main_v5 : FVec F S1x64x1 .f32 := broadcastInDim S1x64x1 ![] bcast_S_S1x64x1 main_cst_0
  let main_v6 : IVec S1x64x1 1 := cmpf .olt main_v4 main_v5
  let main_c_1 : IVec S_ 1 := constantI S_ 1 1#1
  let main_v7 : IVec S_ 1 := (fun x v => Host.reduce IntOp.andi x v reducesTo_S1x64x1_S_d0_1_2 h_S_) main_v6 main_c_1
  let main_v8 : IVec S_ 1 := andi main_v3 main_v7
  let main_v9 : FVec F S64x256x256 .f32 := Host.absf main_arg3
  let main_cst_2 : FVec F S_ .f32 := constant S_ .f32 0x7F800000#32
  let main_v10 : FVec F S64x256x256 .f32 := broadcastInDim S64x256x256 ![] bcast_S_S64x256x256 main_cst_2
  let main_v11 : IVec S64x256x256 1 := cmpf .olt main_v9 main_v10
  let main_c_3 : IVec S_ 1 := constantI S_ 1 1#1
  let main_v12 : IVec S_ 1 := (fun x v => Host.reduce IntOp.andi x v reducesTo_S64x256x256_S_d0_1_2 h_S_) main_v11 main_c_3
  let main_v13 : IVec S_ 1 := andi main_v8 main_v12
  let main_v14 : FVec F S32x256 .f32 := Host.absf main_arg4
  let main_cst_4 : FVec F S_ .f32 := constant S_ .f32 0x7F800000#32
  let main_v15 : FVec F S32x256 .f32 := broadcastInDim S32x256 ![] bcast_S_S32x256 main_cst_4
  let main_v16 : IVec S32x256 1 := cmpf .olt main_v14 main_v15
  fn_part1 (F := F) main_arg1 main_arg2 main_v13 main_v16
-- ==== Kernel.lean ====
abbrev S64x2048x256 : Shape := ⟨3, ![64, 2048, 256]⟩
abbrev S1x64x1 : Shape := ⟨3, ![1, 64, 1]⟩
abbrev S64 : Shape := ⟨1, ![64]⟩
abbrev S64x256x256 : Shape := ⟨3, ![64, 256, 256]⟩
abbrev S32x256 : Shape := ⟨2, ![32, 256]⟩
abbrev S_ : Shape := ⟨0, ![]⟩
abbrev S32x1x256 : Shape := ⟨3, ![32, 1, 256]⟩
abbrev S1x2048x256 : Shape := ⟨3, ![1, 2048, 256]⟩
abbrev S1x256x256 : Shape := ⟨3, ![1, 256, 256]⟩
abbrev S1 : Shape := ⟨1, ![1]⟩
abbrev S1x1x256 : Shape := ⟨3, ![1, 1, 256]⟩
abbrev S2048x256 : Shape := ⟨2, ![2048, 256]⟩
abbrev S256x256 : Shape := ⟨2, ![256, 256]⟩
abbrev S1x256 : Shape := ⟨2, ![1, 256]⟩

abbrev nBuf : Space → Nat
  | .hbm => 26
  | .vmem => 8
  | .smem => 2
  | _ => 0

abbrev bufTy : (tb : Table) → Fin (tcTables nBuf tb) → BufTy
  | .hbm, ⟨0, _⟩ => ⟨S64x2048x256, .f32⟩
  | .hbm, ⟨1, _⟩ => ⟨S1x64x1, .f32⟩
  | .hbm, ⟨2, _⟩ => ⟨S64, .i32⟩
  | .hbm, ⟨3, _⟩ => ⟨S64x256x256, .f32⟩
  | .hbm, ⟨4, _⟩ => ⟨S32x256, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S_, .i32⟩
  | .hbm, ⟨16, _⟩ => ⟨S64, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S64, .i32⟩
  | .hbm, ⟨21, _⟩ => ⟨S64, .i32⟩
  | .hbm, ⟨22, _⟩ => ⟨S_, .i32⟩
  | .hbm, ⟨23, _⟩ => ⟨S64, .i32⟩
  | .hbm, ⟨24, _⟩ => ⟨S32x1x256, .f32⟩
  | .hbm, ⟨25, _⟩ => ⟨S64x2048x256, .f32⟩
  | .local _ .vmem, ⟨0, _⟩ => ⟨S1x2048x256, .f32⟩
  | .local _ .vmem, ⟨1, _⟩ => ⟨S1x2048x256, .f32⟩
  | .local _ .vmem, ⟨2, _⟩ => ⟨S1x256x256, .f32⟩
  | .local _ .vmem, ⟨3, _⟩ => ⟨S1x256x256, .f32⟩
  | .local _ .vmem, ⟨4, _⟩ => ⟨S1x1x256, .f32⟩
  | .local _ .vmem, ⟨5, _⟩ => ⟨S1x1x256, .f32⟩
  | .local _ .vmem, ⟨6, _⟩ => ⟨S1x2048x256, .f32⟩
  | .local _ .vmem, ⟨7, _⟩ => ⟨S1x2048x256, .f32⟩
  | .local _ .smem, ⟨0, _⟩ => ⟨S64, .i32⟩
  | .local _ .smem, ⟨1, _⟩ => ⟨S64, .i32⟩
  | _, _ => ⟨S64x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_c_1 : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v6 : Ref sig .tc := ⟨.hbm, 24, rfl⟩
abbrev main_v7 : Ref sig .tc := ⟨.hbm, 25, rfl⟩
abbrev main_v4 : Ref sig .tc := ⟨.smem, 0, rfl⟩
abbrev main_v5 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

abbrev pre0 : Pipeline.Prefetch sig := ⟨2, ![main_v4.idx, main_v5.idx], fun | 0 => main_v4.names | 1 => main_v5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x64x1_S64 : S1x64x1.ShapeCasts S64
  bcast_S_S64 : S_.BroadcastsInDim S64 (![] : Fin 0 → Fin S64.rank)
  shapeCasts_S32x256_S32x1x256 : S32x256.ShapeCasts S32x1x256
  numel1_S1 : S1.numel = 1
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x256 : S1x256.ShapeCasts S1x256
  broadcasts_S1x256_S2048x256 : S1x256.Broadcasts S2048x256
  shapeCasts_S2048x256_S1x2048x256 : S2048x256.ShapeCasts S1x2048x256
  dot_S2048x256_S256x256_S2048x256_1_0_0_1_n_n_wf : DotDims.WF S2048x256 S256x256 S2048x256 [1] [0] [0] [1] [] []
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S64x2048x256.size a
  hwx0_0 : ∀ i : grid0.Coords, EltTy.bits .f32 = 32 ∨ (Rect.block (s := S64x2048x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x256.size a ≤ S64x2048x256.size a
  hwx0_3 : ∀ i : grid0.Coords, EltTy.bits .f32 = 32 ∨ (Rect.block (s := S64x2048x256) S1x2048x256.size (cc0_transform_3 i) (hinb0_3 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev spec0_0 : Pipeline.WinSpec sig grid0.rank :=
  Pipeline.WinSpec.ofSpec (Memref.whole main_arg0) S1x2048x256.size reads0_0 false false 2 stage0_0 sem0_0 nbuf0_0 hstage0_0

abbrev spec0_1 : Pipeline.WinSpec sig grid0.rank :=
  Pipeline.WinSpec.ofSpec (Memref.whole main_arg3) S1x256x256.size reads0_1 false false 2 stage0_1 sem0_1 nbuf0_1 hstage0_1

abbrev spec0_2 : Pipeline.WinSpec sig grid0.rank :=
  Pipeline.WinSpec.ofSpec (Memref.whole main_v6) S1x1x256.size reads0_2 false false 2 stage0_2 sem0_2 nbuf0_2 hstage0_2

abbrev spec0_3 : Pipeline.WinSpec sig grid0.rank :=
  Pipeline.WinSpec.ofSpec (Memref.whole main_v7) S1x2048x256.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 k0_off1_inb numel1_S1 pf | 2 => cc0_transform_2 k0_off1_inb numel1_S1 pf | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x256x256.size a ≤ S64x256x256.size a), EltTy.bits .f32 = 32 ∨ (Rect.block (s := S64x256x256) S1x256x256.size (cc0_transform_1 k0_off1_inb numel1_S1 pf i) h).WholeWords (EltTy.packing .f32)) ∧
  (∀ i : grid0.Coords, ∃ h : (∀ a, (cc0_transform_2 k0_off1_inb numel1_S1 pf i a + 1) * S1x1x256.size a ≤ S32x1x256.size a), EltTy.bits .f32 = 32 ∨ (Rect.block (s := S32x1x256) S1x1x256.size (cc0_transform_2 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2 i).elim fun h _ => h a | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2 i).elim fun _ h => h | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S64x2048x256 : Shape := ⟨3, ![64, 2048, 256]⟩
abbrev S1x64x1 : Shape := ⟨3, ![1, 64, 1]⟩
abbrev S64 : Shape := ⟨1, ![64]⟩
abbrev S64x256x256 : Shape := ⟨3, ![64, 256, 256]⟩
abbrev S32x256 : Shape := ⟨2, ![32, 256]⟩
abbrev S_ : Shape := ⟨0, ![]⟩
abbrev S64x1 : Shape := ⟨2, ![64, 1]⟩
abbrev S64x256 : Shape := ⟨2, ![64, 256]⟩
abbrev S64x1x256 : Shape := ⟨3, ![64, 1, 256]⟩

abbrev nBuf : Space → Nat
  | .hbm => 32
  | .vmem => 0
  | .smem => 0
  | _ => 0

abbrev bufTy : (tb : Table) → Fin (tcTables nBuf tb) → BufTy
  | .hbm, ⟨0, _⟩ => ⟨S64x2048x256, .f32⟩
  | .hbm, ⟨1, _⟩ => ⟨S1x64x1, .f32⟩
  | .hbm, ⟨2, _⟩ => ⟨S64, .i32⟩
  | .hbm, ⟨3, _⟩ => ⟨S64x256x256, .f32⟩
  | .hbm, ⟨4, _⟩ => ⟨S32x256, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i1⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S64, .i32⟩
  | .hbm, ⟨17, _⟩ => ⟨S64x1, .i32⟩
  | .hbm, ⟨18, _⟩ => ⟨S64x256x256, .f32⟩
  | .hbm, ⟨19, _⟩ => ⟨S_, .i32⟩
  | .hbm, ⟨20, _⟩ => ⟨S64, .i32⟩
  | .hbm, ⟨21, _⟩ => ⟨S64, .i1⟩
  | .hbm, ⟨22, _⟩ => ⟨S_, .i32⟩
  | .hbm, ⟨23, _⟩ => ⟨S64, .i32⟩
  | .hbm, ⟨24, _⟩ => ⟨S64, .i32⟩
  | .hbm, ⟨25, _⟩ => ⟨S64, .i32⟩
  | .hbm, ⟨26, _⟩ => ⟨S64x1, .i32⟩
  | .hbm, ⟨27, _⟩ => ⟨S64x256, .f32⟩
  | .hbm, ⟨28, _⟩ => ⟨S64x2048x256, .f32⟩
  | .hbm, ⟨29, _⟩ => ⟨S64x1x256, .f32⟩
  | .hbm, ⟨30, _⟩ => ⟨S64x2048x256, .f32⟩
  | .hbm, ⟨31, _⟩ => ⟨S64x2048x256, .f32⟩
  | _, _ => ⟨S64x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  shapeCasts_S1x64x1_S64 : S1x64x1.ShapeCasts S64
  bcast_S_S64 : S_.BroadcastsInDim S64 (![] : Fin 0 → Fin S64.rank)
  bcast_S64_S64x1_0 : S64.BroadcastsInDim S64x1 (![0] : Fin 1 → Fin S64x1.rank)
  bcast_S64x256_S64x1x256_0_2 : S64x256.BroadcastsInDim S64x1x256 (![0, 2] : Fin 2 → Fin S64x1x256.rank)
  bcast_S64x1x256_S64x2048x256_0_1_2 : S64x1x256.BroadcastsInDim S64x2048x256 (![0, 1, 2] : Fin 3 → Fin S64x2048x256.rank)
  gather_S64x256x256_S64x1_S64x256x256_12_0_n_n_0_1_1256256_wf : GatherDims.WF S64x256x256 S64x1 S64x256x256 [1, 2] [0] [] [0] [] 1 ![1, 256, 256]
  gather_S32x256_S64x1_S64x256_1_0_n_n_0_1_1256_wf : GatherDims.WF S32x256 S64x1 S64x256 [1] [0] [] [0] [] 1 ![1, 256]
  dot_S64x2048x256_S64x256x256_S64x2048x256_2_1_1_2_0_0_wf : DotDims.WF S64x2048x256 S64x256x256 S64x2048x256 [2] [1] [1] [2] [0] [0]

variable [Facts₀]

def gather_S64x256x256_S64x1_S64x256x256_12_0_n_n_0_1_1256256 : GatherDims S64x256x256 S64x1 S64x256x256 where
  offsetDims := [1, 2]
  collapsedSliceDims := [0]
  operandBatchingDims := []
  startIndicesBatchingDims := []
  startIndexMap := [0]
  indexVectorDim := 1
  sliceSizes := ![1, 256, 256]
  wf := gather_S64x256x256_S64x1_S64x256x256_12_0_n_n_0_1_1256256_wf
def gather_S32x256_S64x1_S64x256_1_0_n_n_0_1_1256 : GatherDims S32x256 S64x1 S64x256 where
  offsetDims := [1]
  collapsedSliceDims := [0]
  operandBatchingDims := []
  startIndicesBatchingDims := []
  startIndexMap := [0]
  indexVectorDim := 1
  sliceSizes := ![1, 256]
  wf := gather_S32x256_S64x1_S64x256_1_0_n_n_0_1_1256_wf
def dot_S64x2048x256_S64x256x256_S64x2048x256_2_1_1_2_0_0 : DotDims S64x2048x256 S64x256x256 S64x2048x256 where
  lhsContracting := [2]
  rhsContracting := [1]
  lhsNonContracting := [1]
  rhsNonContracting := [2]
  lhsBatch := [0]
  rhsBatch := [0]
  wf := dot_S64x2048x256_S64x256x256_S64x2048x256_2_1_1_2_0_0_wf

class Facts : Prop extends Facts₀ where

variable [Facts]
-- ==== Proof.Spec.lean ====
/-
  What both programs compute, as one function of the argument arrays.

  Channel c of the result is the batched linear map
      out[c, p, o] = (sum over k of x[c, p, k] * W[rw c, k, o]) + B[rb c, o],
  where the weight slab rw c and the bias row rb c are selected by signed 32-bit index words.
  A word w selects row  min (max w 0) n  of a table with n + 1 rows: a negative word selects row 0 and a word past the
  end the last row (rowOf). The kernel reaches that row by clipping the word into [0, n] before it indexes; the
  reference by indexing with the word as it is, which reads it signed and clamps it into the table. The two agree for
  every word; what differs is that the reference first adds the table's length to a NEGATIVE word (wrap-around
  indexing), which a non-negative word never meets (wrap_of_nonneg).
-/
import Idealize.ShloMosaic.PureOps.Ideal
import Idealize.ShloMosaic.Lib.ValueIdx

noncomputable section

namespace Cert.Spec

open Idealize.ShloMosaic Idealize.ShloMosaic.ValueIdx

/-- The row a signed index word selects in a table of n + 1 rows: the word read signed, a negative one as 0,
    one past the end as n. -/
def rowOf (n : Nat) (w : BitVec 32) : Fin (n + 1) :=
  ⟨min w.toInt.toNat n, Nat.lt_succ_of_le (Nat.min_le_right _ _)⟩

theorem rowOf_val (n : Nat) (w : BitVec 32) : (rowOf n w).val = min w.toInt.toNat n := rfl

/-- The result array: per channel, x's slab times the selected weight slab, plus the selected bias row
    on every point. -/
def G (x : (⟨3, ![64, 2048, 256]⟩ : Shape).Idx → EReal) (W : (⟨3, ![64, 256, 256]⟩ : Shape).Idx → EReal)
    (B : (⟨2, ![32, 256]⟩ : Shape).Idx → EReal) (rw : Fin 64 → Fin 64) (rb : Fin 64 → Fin 32) :
    (⟨3, ![64, 2048, 256]⟩ : Shape).Idx → EReal :=
  fun i => (∑ k : Fin 256, x (ix3 (i 0) (i 1) k) * W (ix3 (rw (i 0)) k (i 2))) + B (ix2 (rb (i 0)) (i 2))

theorem ofBool_eq_one (b : Bool) : BitVec.ofBool b = 1#1 ↔ b = true := by cases b <;> decide

/-- A word that is signed-nonnegative is not signed-negative. -/
theorem not_slt_zero (w : BitVec 32) (h : IntOp.cmpi .sge w 0#32 = 1#1) : ¬ (IntOp.cmpi .slt w 0#32 = 1#1) := by
  intro h'
  unfold IntOp.cmpi at h h'
  rw [ofBool_eq_one] at h h'
  simp only [BitVec.slt, BitVec.sle, decide_eq_true_eq] at h h'
  omega

/-- Wrap-around indexing leaves a non-negative word alone: the table's length is added only to a negative word. -/
theorem wrap_of_nonneg (w k : BitVec 32) (h : IntOp.cmpi .sge w 0#32 = 1#1) :
    Scalar.select (IntOp.cmpi .slt w 0#32) (IntOp.addi w k) w = w :=
  if_neg (not_slt_zero w h)

/-- Clipping a word into [0, n] and reading the result unsigned is the row the word selects, for every word. -/
theorem clip_toNat (n : Nat) (hn : n < 2 ^ 31) (w : BitVec 32) :
    (IntOp.minsi (BitVec.ofNat 32 n) (IntOp.maxsi 0#32 w)).toNat = (rowOf n w).val := by
  rw [rowOf_val]
  unfold IntOp.minsi IntOp.maxsi
  have h32 := w.isLt
  have hn' : (BitVec.ofNat 32 n).toNat = n := by
    rw [BitVec.toNat_ofNat]; exact Nat.mod_eq_of_lt (by omega)
  have hni : (BitVec.ofNat 32 n).toInt = (n : Int) := by
    rw [BitVec.toInt_eq_toNat_cond, hn']; rw [if_pos (by omega)]
  have h0 : (0#32 : BitVec 32).toInt = 0 := by decide
  have hw := BitVec.toInt_eq_toNat_cond w
  by_cases hneg : w.slt 0#32
  · -- a negative word: clipped to 0
    have hneg' := hneg
    simp only [BitVec.slt, decide_eq_true_eq, h0] at hneg'
    rw [if_pos hneg]
    have h1 : ¬ ((BitVec.ofNat 32 n).slt 0#32 = true) := by
      simp only [BitVec.slt, decide_eq_true_eq, h0, hni]; omega
    rw [if_neg h1]
    have : w.toInt.toNat = 0 := by omega
    rw [this]; simp
  · rw [if_neg hneg]
    have hneg' := hneg
    simp only [BitVec.slt, decide_eq_true_eq, h0, not_lt] at hneg'
    have hwn : w.toInt = (w.toNat : Int) := by
      rw [hw]; split
      · rfl
      · omega
    by_cases hlt : (BitVec.ofNat 32 n).slt w
    · rw [if_pos hlt]
      have hlt' := hlt
      simp only [BitVec.slt, decide_eq_true_eq, hni, hwn] at hlt'
      rw [hn', hwn, Int.toNat_natCast]; omega
    · rw [if_neg hlt]
      have hlt' := hlt
      simp only [BitVec.slt, decide_eq_true_eq, hni, hwn, not_lt] at hlt'
      rw [hwn, Int.toNat_natCast]; omega

end Cert.Spec

end
-- ==== Proof.TablesBits.lean ====
/-
  The prefetched tables. Before the region runs, the host clips the selecting words: table 0 holds, per channel,
  min 63 (max 0 w) of the model index word w, and table 1 holds min 31 (max 0 b) of the bias index word b, where b is
  the truncation of the channel's scalar times 31. Read unsigned, a clipped word is the row its index word selects
  (Spec.rowOf): below 64 in table 0 and below 32 in table 1. Hence the weight slab and the bias row a table word
  points at always exist, for every input, with no assumption on the words. The bias array the region reads is the
  bias argument reshaped with a unit middle axis.
-/
import proofs.«413950_j81741817577961_3_alg».proof.Proof.Gen.Kernel.Frame
import proofs.«413950_j81741817577961_3_alg».proof.Proof.Spec
import Idealize.ShloMosaic.Lib.StableHlo.Run

set_option maxRecDepth 16384

noncomputable section

namespace Cert.Kernel.Tables

open Cert.Kernel Cert.Kernel.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-! ## The two tables, as the clips that computed them -/

/-- Table 0 is the model index words clipped into [0, 63]: min 63 (max 0 w) at every position. -/
theorem tbl0_eq : tbl m 0 = (minsi (broadcastInDim S64 ![] bcast_S_S64 (constantI S_ 32 63#32)) (maxsi (broadcastInDim S64 ![] bcast_S_S64 (constantI S_ 32 0#32)) (m (((0 : Dev nD) : Thread nD τ).loc main_arg2))) : IVec S64 32) := by
  unfold tbl
  show V m 0 main_v4 = _
  dsimp only [V]
  simp only [hostOps0, hostOps0_1, hostOps0_2, hostOps0_3, hostOps0_4, List.flatten_cons, List.flatten_nil, List.append_nil, List.cons_append, List.nil_append]
  after_results
  rfl

/-- Table 1 is the bias index words clipped into [0, 31], the bias index word of a channel being the truncation
    of its scalar times 31. -/
theorem tbl1_eq : tbl m 1 = (minsi (broadcastInDim S64 ![] bcast_S_S64 (constantI S_ 32 31#32)) (maxsi (broadcastInDim S64 ![] bcast_S_S64 (constantI S_ 32 0#32)) (fptosi 32 (mulf (shapeCast S64 (m (((0 : Dev nD) : Thread nD τ).loc main_arg1)) shapeCasts_S1x64x1_S64) (broadcastInDim S64 ![] bcast_S_S64 (constant S_ .f32 0x41F80000#32))))) : IVec S64 32) := by
  unfold tbl
  show V m 0 main_v5 = _
  dsimp only [V]
  simp only [hostOps0, hostOps0_1, hostOps0_2, hostOps0_3, hostOps0_4, List.flatten_cons, List.flatten_nil, List.append_nil, List.cons_append, List.nil_append]
  after_results
  rfl

/-! ## A table word, read unsigned, is the row its index word selects -/

theorem tbl0_word (x : S64.Idx) : (tbl m 0 x).toNat = (Cert.Spec.rowOf 63 (m (((0 : Dev nD) : Thread nD τ).loc main_arg2) x)).val := by
  rw [tbl0_eq]
  exact Cert.Spec.clip_toNat 63 (by decide) _

theorem tbl1_word (x : S64.Idx) : (tbl m 1 x).toNat = (Cert.Spec.rowOf 31 ((fptosi 32 (mulf (shapeCast S64 (m (((0 : Dev nD) : Thread nD τ).loc main_arg1)) shapeCasts_S1x64x1_S64) (broadcastInDim S64 ![] bcast_S_S64 (constant S_ .f32 0x41F80000#32))) : IVec S64 32) x)).val := by
  rw [tbl1_eq]
  exact Cert.Spec.clip_toNat 31 (by decide) _

/-! ## Every block a table word selects lies inside its array -/

/-- A clipped word is a row of its table, so the weight slab and the bias row it selects exist: for every
    launch memory, with no assumption on the index words. -/
theorem ok : Ok m := by
  -- every word of table 0 is below 64 and every word of table 1 below 32, being rows of their tables
  have h0 : ∀ x : S64.Idx, (tbl m 0 x).toNat < 64 := fun x => (tbl0_word m x).trans_lt (Cert.Spec.rowOf 63 _).isLt
  have h1 : ∀ x : S64.Idx, (tbl m 1 x).toNat < 32 := fun x => (tbl1_word m x).trans_lt (Cert.Spec.rowOf 31 _).isLt
  refine ⟨fun i => ?_, fun i => ?_⟩
  · -- the weight window: slab w of 64, w a word of table 0
    obtain ⟨w, hw, e⟩ : ∃ w : BitVec 32, w.toNat < 64 ∧ cc0_transform_1 k0_off1_inb numel1_S1 (tbl m) i = ![w.toNat, 0, 0] :=
      ⟨_, h0 _, rfl⟩
    refine ⟨fun a => ?_, Or.inl rfl⟩
    rw [e]
    fin_cases a <;> simp [S1x256x256, S64x256x256] <;> omega
  · -- the bias window: row w of 32, w a word of table 1
    obtain ⟨w, hw, e⟩ : ∃ w : BitVec 32, w.toNat < 32 ∧ cc0_transform_2 k0_off1_inb numel1_S1 (tbl m) i = ![w.toNat, 0, 0] :=
      ⟨_, h1 _, rfl⟩
    refine ⟨fun a => ?_, Or.inl rfl⟩
    rw [e]
    fin_cases a <;> simp [S1x1x256, S32x1x256] <;> omega

/-! ## The bias array as the region finds it -/

/-- The region's bias array is the bias argument with a unit axis inserted: the same elements in row-major order. -/
theorem V_main_v6 (c : Dev nD) : (V m c main_v6 : S32x1x256.Idx → Elt F .f32) = shapeCast S32x1x256 (m ((c : Thread nD τ).loc main_arg4)) shapeCasts_S32x256_S32x1x256 := by
  dsimp only [V]
  simp only [hostOps0, hostOps0_1, hostOps0_2, hostOps0_3, hostOps0_4, List.flatten_cons, List.flatten_nil, List.append_nil, List.cons_append, List.nil_append]
  after_results
  rfl

end Cert.Kernel.Tables

end
-- ==== Proof.TablesIdeal.lean ====
/-
  The prefetched tables. Before the region runs, the host clips the selecting words: table 0 holds, per channel,
  min 63 (max 0 w) of the model index word w, and table 1 holds min 31 (max 0 b) of the bias index word b, where b is
  the truncation of the channel's scalar times 31. Read unsigned, a clipped word is the row its index word selects
  (Spec.rowOf): below 64 in table 0 and below 32 in table 1. Hence the weight slab and the bias row a table word
  points at always exist, for every input, with no assumption on the words. The bias array the region reads is the
  bias argument reshaped with a unit middle axis.
-/
import proofs.«413950_j81741817577961_3_alg».proof.Proof.Gen.KernelIdeal.Frame
import proofs.«413950_j81741817577961_3_alg».proof.Proof.Spec
import Idealize.ShloMosaic.Lib.StableHlo.Run

set_option maxRecDepth 16384

noncomputable section

namespace Cert.KernelIdeal.Tables

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-! ## The two tables, as the clips that computed them -/

/-- Table 0 is the model index words clipped into [0, 63]: min 63 (max 0 w) at every position. -/
theorem tbl0_eq : tbl m 0 = (minsi (broadcastInDim S64 ![] bcast_S_S64 (constantI S_ 32 63#32)) (maxsi (broadcastInDim S64 ![] bcast_S_S64 (constantI S_ 32 0#32)) (m (((0 : Dev nD) : Thread nD τ).loc main_arg2))) : IVec S64 32) := by
  unfold tbl
  show V m 0 main_v4 = _
  dsimp only [V]
  simp only [hostOps0, hostOps0_1, hostOps0_2, hostOps0_3, hostOps0_4, List.flatten_cons, List.flatten_nil, List.append_nil, List.cons_append, List.nil_append]
  after_results
  rfl

/-- Table 1 is the bias index words clipped into [0, 31], the bias index word of a channel being the truncation
    of its scalar times 31. -/
theorem tbl1_eq : tbl m 1 = (minsi (broadcastInDim S64 ![] bcast_S_S64 (constantI S_ 32 31#32)) (maxsi (broadcastInDim S64 ![] bcast_S_S64 (constantI S_ 32 0#32)) (fptosi 32 (mulf (shapeCast S64 (m (((0 : Dev nD) : Thread nD τ).loc main_arg1)) shapeCasts_S1x64x1_S64) (broadcastInDim S64 ![] bcast_S_S64 (constant S_ .f32 0x41F80000#32))))) : IVec S64 32) := by
  unfold tbl
  show V m 0 main_v5 = _
  dsimp only [V]
  simp only [hostOps0, hostOps0_1, hostOps0_2, hostOps0_3, hostOps0_4, List.flatten_cons, List.flatten_nil, List.append_nil, List.cons_append, List.nil_append]
  after_results
  rfl

/-! ## A table word, read unsigned, is the row its index word selects -/

theorem tbl0_word (x : S64.Idx) : (tbl m 0 x).toNat = (Cert.Spec.rowOf 63 (m (((0 : Dev nD) : Thread nD τ).loc main_arg2) x)).val := by
  rw [tbl0_eq]
  exact Cert.Spec.clip_toNat 63 (by decide) _

theorem tbl1_word (x : S64.Idx) : (tbl m 1 x).toNat = (Cert.Spec.rowOf 31 ((fptosi 32 (mulf (shapeCast S64 (m (((0 : Dev nD) : Thread nD τ).loc main_arg1)) shapeCasts_S1x64x1_S64) (broadcastInDim S64 ![] bcast_S_S64 (constant S_ .f32 0x41F80000#32))) : IVec S64 32) x)).val := by
  rw [tbl1_eq]
  exact Cert.Spec.clip_toNat 31 (by decide) _

/-! ## Every block a table word selects lies inside its array -/

/-- A clipped word is a row of its table, so the weight slab and the bias row it selects exist: for every
    launch memory, with no assumption on the index words. -/
theorem ok : Ok m := by
  -- every word of table 0 is below 64 and every word of table 1 below 32, being rows of their tables
  have h0 : ∀ x : S64.Idx, (tbl m 0 x).toNat < 64 := fun x => (tbl0_word m x).trans_lt (Cert.Spec.rowOf 63 _).isLt
  have h1 : ∀ x : S64.Idx, (tbl m 1 x).toNat < 32 := fun x => (tbl1_word m x).trans_lt (Cert.Spec.rowOf 31 _).isLt
  refine ⟨fun i => ?_, fun i => ?_⟩
  · -- the weight window: slab w of 64, w a word of table 0
    obtain ⟨w, hw, e⟩ : ∃ w : BitVec 32, w.toNat < 64 ∧ cc0_transform_1 k0_off1_inb numel1_S1 (tbl m) i = ![w.toNat, 0, 0] :=
      ⟨_, h0 _, rfl⟩
    refine ⟨fun a => ?_, Or.inl rfl⟩
    rw [e]
    fin_cases a <;> simp [S1x256x256, S64x256x256] <;> omega
  · -- the bias window: row w of 32, w a word of table 1
    obtain ⟨w, hw, e⟩ : ∃ w : BitVec 32, w.toNat < 32 ∧ cc0_transform_2 k0_off1_inb numel1_S1 (tbl m) i = ![w.toNat, 0, 0] :=
      ⟨_, h1 _, rfl⟩
    refine ⟨fun a => ?_, Or.inl rfl⟩
    rw [e]
    fin_cases a <;> simp [S1x1x256, S32x1x256] <;> omega

/-! ## The bias array as the region finds it -/

/-- The region's bias array is the bias argument with a unit axis inserted: the same elements in row-major order. -/
theorem V_main_v6 (c : Dev nD) : (V m c main_v6 : S32x1x256.Idx → Elt F .f32) = shapeCast S32x1x256 (m ((c : Thread nD τ).loc main_arg4)) shapeCasts_S32x256_S32x1x256 := by
  dsimp only [V]
  simp only [hostOps0, hostOps0_1, hostOps0_2, hostOps0_3, hostOps0_4, List.flatten_cons, List.flatten_nil, List.append_nil, List.cons_append, List.nil_append]
  after_results
  rfl

end Cert.KernelIdeal.Tables

end
-- ==== Proof.Payload.lean ====
/-
  The body's arithmetic read at an index of its one stored block, at the ideal instance.

  The body loads x's block xb : [1, 2048, 256], the selected weight slab wb : [1, 256, 256] and the selected bias row
  bb : [1, 1, 256], and stores  (xb as [2048, 256]) · (wb as [256, 256]) + (bb broadcast over the rows)  as [1, 2048, 256].
  Over the extended reals the two format changes before the product are the identity and the product into a zero
  accumulator is the plain sum over the contracted axis, so the stored block is, at (0, p, o),
      (sum over k of xb[0, p, k] * wb[0, k, o]) + bb[0, 0, o].
-/
import proofs.«413950_j81741817577961_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-! ## The product's operand indices, axis by axis -/

theorem lhs_mm_0 (j : S2048x256.Idx) (q : dot_S2048x256_S256x256_S2048x256_1_0_0_1_n_n.contr.Idx) :
    (dot_S2048x256_S256x256_S2048x256_1_0_0_1_n_n.lhsIdx j q 0).val = (j 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl
theorem lhs_mm_1 (j : S2048x256.Idx) (q : dot_S2048x256_S256x256_S2048x256_1_0_0_1_n_n.contr.Idx) :
    (dot_S2048x256_S256x256_S2048x256_1_0_0_1_n_n.lhsIdx j q 1).val = (q ⟨0, by decide⟩).val :=
  dot_S2048x256_S256x256_S2048x256_1_0_0_1_n_n.lhsIdx_val_of_single rfl j q
theorem rhs_mm_0 (j : S2048x256.Idx) (q : dot_S2048x256_S256x256_S2048x256_1_0_0_1_n_n.contr.Idx) :
    (dot_S2048x256_S256x256_S2048x256_1_0_0_1_n_n.rhsIdx j q 0).val = (q ⟨0, by decide⟩).val :=
  dot_S2048x256_S256x256_S2048x256_1_0_0_1_n_n.rhsIdx_val_of_single rfl j q
theorem rhs_mm_1 (j : S2048x256.Idx) (q : dot_S2048x256_S256x256_S2048x256_1_0_0_1_n_n.contr.Idx) :
    (dot_S2048x256_S256x256_S2048x256_1_0_0_1_n_n.rhsIdx j q 1).val = (j 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

/-- The product of two matrices into a zero accumulator, at (p, o): the sum over the contracted axis. -/
theorem mm_apply (a : FVec Ideal S2048x256 .bf16) (b : FVec Ideal S256x256 .bf16) (p : Fin 2048) (o : Fin 256) :
    matmul dot_S2048x256_S256x256_S2048x256_1_0_0_1_n_n none a b (constant S2048x256 .f32 0x00000000#32) (ix2 p o)
      = ∑ k : Fin 256, a (ix2 p k) * b (ix2 k o) := by
  simp only [matmul]
  rw [Ideal.matmul_constant_zero_apply,
    ← Equiv.sum_comp (ValueIdx.contrEquiv1 dot_S2048x256_S256x256_S2048x256_1_0_0_1_n_n 256 rfl rfl).symm]
  refine Finset.sum_congr rfl fun k _ => ?_
  have hk := ValueIdx.contrEquiv1_symm_val dot_S2048x256_S256x256_S2048x256_1_0_0_1_n_n 256 rfl rfl k
  have el : dot_S2048x256_S256x256_S2048x256_1_0_0_1_n_n.lhsIdx (ix2 p o)
      ((ValueIdx.contrEquiv1 dot_S2048x256_S256x256_S2048x256_1_0_0_1_n_n 256 rfl rfl).symm k) = ix2 p k :=
    funext fun x => Fin.ext (by
      match x with
      | ⟨0, _⟩ => exact lhs_mm_0 _ _
      | ⟨1, _⟩ => exact (lhs_mm_1 _ _).trans hk)
  have er : dot_S2048x256_S256x256_S2048x256_1_0_0_1_n_n.rhsIdx (ix2 p o)
      ((ValueIdx.contrEquiv1 dot_S2048x256_S256x256_S2048x256_1_0_0_1_n_n 256 rfl rfl).symm k) = ix2 k o :=
    funext fun x => Fin.ext (by
      match x with
      | ⟨0, _⟩ => exact (rhs_mm_0 _ _).trans hk
      | ⟨1, _⟩ => exact rhs_mm_1 _ _)
  rw [el, er]

/-! ## The layout changes around the product -/

/-- Dropping the leading unit axis of a [1, a, b] block. -/
theorem drop_unit_x (v : Vec Ideal S1x2048x256 .f32) (p : Fin 2048) (k : Fin 256) :
    shapeCast S2048x256 v shapeCasts_S1x2048x256_S2048x256 (ix2 p k) = v (ix3 0 p k) :=
  shapeCast_apply v shapeCasts_S1x2048x256_S2048x256 (ix2 p k) (ix3 0 p k)
    (by rw [Shape.rowMajor_val_three, Shape.rowMajor_val_two]; show (0 * 2048 + p.val) * 256 + k.val = p.val * 256 + k.val; omega)

theorem drop_unit_w (v : Vec Ideal S1x256x256 .f32) (k : Fin 256) (o : Fin 256) :
    shapeCast S256x256 v shapeCasts_S1x256x256_S256x256 (ix2 k o) = v (ix3 0 k o) :=
  shapeCast_apply v shapeCasts_S1x256x256_S256x256 (ix2 k o) (ix3 0 k o)
    (by rw [Shape.rowMajor_val_three, Shape.rowMajor_val_two]; show (0 * 256 + k.val) * 256 + o.val = k.val * 256 + o.val; omega)

theorem drop_unit_b (v : Vec Ideal S1x1x256 .f32) (o : Fin 256) :
    shapeCast S1x256 v shapeCasts_S1x1x256_S1x256 (ix2 0 o) = v (ix3 0 0 o) :=
  shapeCast_apply v shapeCasts_S1x1x256_S1x256 (ix2 0 o) (ix3 0 0 o)
    (by rw [Shape.rowMajor_val_three, Shape.rowMajor_val_two]; show (0 * 1 + 0) * 256 + o.val = 0 * 256 + o.val; omega)

/-- Putting the leading unit axis back on the [2048, 256] result. -/
theorem add_unit_out (v : FVec Ideal S2048x256 .f32) (p : Fin 2048) (o : Fin 256) :
    shapeCast S1x2048x256 v shapeCasts_S2048x256_S1x2048x256 (ix3 0 p o) = v (ix2 p o) :=
  shapeCast_apply v shapeCasts_S2048x256_S1x2048x256 (ix3 0 p o) (ix2 p o)
    (by rw [Shape.rowMajor_val_three, Shape.rowMajor_val_two]; show p.val * 256 + o.val = (0 * 2048 + p.val) * 256 + o.val; omega)

/-- The bias row repeated over the 2048 rows. -/
theorem rows_of_bias (v : FVec Ideal S1x256 .f32) (p : Fin 2048) (o : Fin 256) :
    broadcastTo S2048x256 v broadcasts_S1x256_S2048x256 (ix2 p o) = v (ix2 0 o) :=
  broadcastTo_apply v broadcasts_S1x256_S2048x256 (ix2 p o) (ix2 0 o) (fun a => by
    match a with
    | ⟨0, _⟩ => show (0 : Nat) = if (1 : Nat) = 1 then 0 else _; rw [if_pos rfl]
    | ⟨1, _⟩ => show o.val = if (256 : Nat) = 1 then 0 else o.val; rw [if_neg (by decide)])

/-! ## The stored block at an index -/

/-- THE STORED BLOCK at (0, p, o): x's row p against column o of the weight slab, plus entry o of the bias row. -/
theorem pay_apply (xb : Vec Ideal S1x2048x256 .f32) (wb : Vec Ideal S1x256x256 .f32) (bb : Vec Ideal S1x1x256 .f32)
    (p : Fin 2048) (o : Fin 256) :
    k0_pay1 xb wb bb (ix3 0 p o) = (∑ k : Fin 256, xb (ix3 0 p k) * wb (ix3 0 k o)) + bb (ix3 0 0 o) := by
  unfold k0_pay1
  rw [add_unit_out, addf_apply, mm_apply, rows_of_bias, shapeCast_self, drop_unit_b]
  congr 1
  refine Finset.sum_congr rfl fun k _ => ?_
  rw [truncf_apply, truncf_apply, drop_unit_x, drop_unit_w]

end Cert.KernelIdeal.Payload

end
-- ==== Proof.KernelValue.lean ====
/-
  The kernel's result array, read off its run.

  The grid has one axis of 64 points, one per channel. At point t the pipeline hands the body three blocks: channel t of
  x (block index (t, 0, 0)), the weight slab whose index is word t of the first prefetched table, and the bias row whose
  index is word t of the second. Those words are the model index word and the bias index word of channel t clipped into
  their tables, so read unsigned they are the rows rowW t and rowB t the words select. The body stores
  x_t · W[rowW t] + B[rowB t] into the result's block (t, 0, 0). The 64 blocks tile the result, every point writes its
  block back, and so the result array ends holding the specification's function of the argument arrays, index by index.
-/
import proofs.«413950_j81741817577961_3_alg».proof.Proof.Gen.KernelIdeal.Frame
import proofs.«413950_j81741817577961_3_alg».proof.Proof.Payload
import proofs.«413950_j81741817577961_3_alg».proof.Proof.Spec
import proofs.«413950_j81741817577961_3_alg».proof.Proof.TablesIdeal
import Idealize.ShloMosaic.Lib.Pipeline.Value
import Idealize.ShloMosaic.Lib.ValueIdx

set_option maxRecDepth 16384

noncomputable section

namespace Cert.KernelIdeal.KValue

open Cert.KernelIdeal Cert.KernelIdeal.Gen
open Idealize.ShloMosaic Idealize.ShloMosaic.TcCoe Idealize.ShloMosaic.Tactic Idealize.SL.Sem Idealize.ShloMosaic.ValueIdx
open Idealize.ShloMosaic.Pipeline (Dat)

theorem hz3 : (![0, 0, 0] : Fin 3 → Nat) = fun _ => 0 := funext fun a => by fin_cases a <;> rfl

/-! ## Where each window's block sits, point by point -/

/-- The one grid axis has 64 points and point t has coordinate t: x's and the result's block index is (t, 0, 0), and the
    tables are read at word t. -/
theorem idx_facts : ∀ t : Fin grid0.N, cc0_transform_0 (grid0.coords t) = ![t.val, 0, 0]
    ∧ cc0_transform_3 (grid0.coords t) = ![t.val, 0, 0] ∧ k0_off1 (grid0.coords t) = ![t.val] ∧ t.val < 64 := by
  decide +kernel

variable (m : (ℓ : Loc nD τ sig) → Buf (Elt Ideal) ℓ) (ρ : Dev nD → PrngReg)

/-- Point t as a channel. -/
def chan (hO : Ok m) (t : Fin (cfgM m hO).N) : Fin 64 := ⟨t.val, (idx_facts t).2.2.2⟩

/-- The arrays the three input windows read, and their blocks at a point, at their literal types. -/
abbrev xarr (c : Dev nD) : Vec Ideal S64x2048x256 .f32 := V m c main_arg0
abbrev warr (c : Dev nD) : Vec Ideal S64x256x256 .f32 := V m c main_arg3
abbrev barr (c : Dev nD) : Vec Ideal S32x1x256 .f32 := V m c main_v6
abbrev xblk (hO : Ok m) (c : Dev nD) (t : Fin (cfgM m hO).N) : Vec Ideal S1x2048x256 .f32 := iblk m hO c 0 t
abbrev wblk (hO : Ok m) (c : Dev nD) (t : Fin (cfgM m hO).N) : Vec Ideal S1x256x256 .f32 := iblk m hO c 1 t
abbrev bblk (hO : Ok m) (c : Dev nD) (t : Fin (cfgM m hO).N) : Vec Ideal S1x1x256 .f32 := iblk m hO c 2 t

/-- The one index of a unit rectangle has every coordinate 0. -/
theorem first_S1 (h1 : 0 < S1.numel) : ((Shape.Idx.first h1 : S1.Idx) 0).val = 0 := by
  have := (Shape.Idx.first h1 (0 : Fin 1)).isLt
  have e : S1.size (0 : Fin 1) = 1 := by decide
  omega

/-- The index at which the index maps read a table at point t is entry t. -/
theorem word_idx (hO : Ok m) (t : Fin (cfgM m hO).N) (h1 : 0 < S1.numel) :
    (Rect.unit (s := S64) ![(Scalar.indexCast (BitVec.ofNat 32 ((grid0.coords t) 0).val)).toNat] S1.size (Facts₀.k0_off1_inb (grid0.coords t))).emb (Shape.Idx.first h1)
      = ix1 (chan m hO t) := by
  funext a
  apply Fin.ext
  match a with
  | ⟨0, _⟩ =>
    show (Scalar.indexCast (BitVec.ofNat 32 ((grid0.coords t) 0).val)).toNat + 1 * ((Shape.Idx.first h1 : S1.Idx) 0).val = t.val
    rw [first_S1]
    have e := congrFun (idx_facts t).2.2.1 0
    have e' : (Scalar.indexCast (BitVec.ofNat 32 ((grid0.coords t) 0).val)).toNat = t.val := e
    omega

/-- The weight block's index at point t is (entry t of table 0, 0, 0); the bias block's (entry t of table 1, 0, 0). -/
theorem widx (hO : Ok m) (t : Fin (cfgM m hO).N) :
    ((cfgM m hO).win 1).index t = ![(tbl m 0 (ix1 (chan m hO t))).toNat, 0, 0] := by
  show cc0_transform_1 Facts₀.k0_off1_inb Facts₀.numel1_S1 (tbl m) (grid0.coords t) = _
  unfold cc0_transform_1
  dsimp only
  rw [show (tbl m).at 0 (Rect.unit (s := S64) ![(Scalar.indexCast (BitVec.ofNat 32 ((grid0.coords t) 0).val)).toNat] S1.size (Facts₀.k0_off1_inb (grid0.coords t))) Facts₀.numel1_S1
      = tbl m 0 (ix1 (chan m hO t)) from congrArg (tbl m 0) (word_idx m hO t _)]
  rfl

theorem bidx (hO : Ok m) (t : Fin (cfgM m hO).N) :
    ((cfgM m hO).win 2).index t = ![(tbl m 1 (ix1 (chan m hO t))).toNat, 0, 0] := by
  show cc0_transform_2 Facts₀.k0_off1_inb Facts₀.numel1_S1 (tbl m) (grid0.coords t) = _
  unfold cc0_transform_2
  dsimp only
  rw [show (tbl m).at 1 (Rect.unit (s := S64) ![(Scalar.indexCast (BitVec.ofNat 32 ((grid0.coords t) 0).val)).toNat] S1.size (Facts₀.k0_off1_inb (grid0.coords t))) Facts₀.numel1_S1
      = tbl m 1 (ix1 (chan m hO t)) from congrArg (tbl m 1) (word_idx m hO t _)]
  rfl

theorem xidx (hO : Ok m) (t : Fin (cfgM m hO).N) : ((cfgM m hO).win 0).index t = ![t.val, 0, 0] :=
  (idx_facts t).1
theorem oidx (hO : Ok m) (t : Fin (cfgM m hO).N) : ((cfgM m hO).win 3).index t = ![t.val, 0, 0] :=
  (idx_facts t).2.1

/-- x's block at point t is channel t of x. -/
theorem xblk_apply (hO : Ok m) (c : Dev nD) (t : Fin (cfgM m hO).N) (p : Fin 2048) (k : Fin 256) :
    xblk m hO c t (ix3 0 p k) = xarr m c (ix3 (chan m hO t) p k) := by
  show V m c main_arg0 ((((cfgM m hO).win 0).blk t).view.emb (ix3 0 p k)) = V m c main_arg0 (ix3 (chan m hO t) p k)
  refine congrArg (V m c main_arg0) (funext fun a => Fin.ext ?_)
  have hi := xidx m hO t
  match a with
  | ⟨0, _⟩ =>
    show ((cfgM m hO).win 0).index t (0 : Fin 3) * 1 + 1 * 0 = t.val
    rw [hi]; show t.val * 1 + 1 * 0 = t.val; omega
  | ⟨1, _⟩ =>
    show ((cfgM m hO).win 0).index t (1 : Fin 3) * 2048 + 1 * p.val = p.val
    rw [hi]; show 0 * 2048 + 1 * p.val = p.val; omega
  | ⟨2, _⟩ =>
    show ((cfgM m hO).win 0).index t (2 : Fin 3) * 256 + 1 * k.val = k.val
    rw [hi]; show 0 * 256 + 1 * k.val = k.val; omega

/-- The weight block at point t is the slab the table word selects. -/
theorem wblk_apply (hO : Ok m) (c : Dev nD) (t : Fin (cfgM m hO).N) (r : Fin 64)
    (hr : (tbl m 0 (ix1 (chan m hO t))).toNat = r.val) (k : Fin 256) (o : Fin 256) :
    wblk m hO c t (ix3 0 k o) = warr m c (ix3 r k o) := by
  show V m c main_arg3 ((((cfgM m hO).win 1).blk t).view.emb (ix3 0 k o)) = V m c main_arg3 (ix3 r k o)
  refine congrArg (V m c main_arg3) (funext fun a => Fin.ext ?_)
  have hi := widx m hO t
  match a with
  | ⟨0, _⟩ =>
    show ((cfgM m hO).win 1).index t (0 : Fin 3) * 1 + 1 * 0 = r.val
    rw [hi]; show (tbl m 0 (ix1 (chan m hO t))).toNat * 1 + 1 * 0 = r.val; omega
  | ⟨1, _⟩ =>
    show ((cfgM m hO).win 1).index t (1 : Fin 3) * 256 + 1 * k.val = k.val
    rw [hi]; show 0 * 256 + 1 * k.val = k.val; omega
  | ⟨2, _⟩ =>
    show ((cfgM m hO).win 1).index t (2 : Fin 3) * 256 + 1 * o.val = o.val
    rw [hi]; show 0 * 256 + 1 * o.val = o.val; omega

/-- The bias block at point t is the row the table word selects. -/
theorem bblk_apply (hO : Ok m) (c : Dev nD) (t : Fin (cfgM m hO).N) (r : Fin 32)
    (hr : (tbl m 1 (ix1 (chan m hO t))).toNat = r.val) (o : Fin 256) :
    bblk m hO c t (ix3 0 0 o) = barr m c (ix3 r 0 o) := by
  show V m c main_v6 ((((cfgM m hO).win 2).blk t).view.emb (ix3 0 0 o)) = V m c main_v6 (ix3 r 0 o)
  refine congrArg (V m c main_v6) (funext fun a => Fin.ext ?_)
  have hi := bidx m hO t
  match a with
  | ⟨0, _⟩ =>
    show ((cfgM m hO).win 2).index t (0 : Fin 3) * 1 + 1 * 0 = r.val
    rw [hi]; show (tbl m 1 (ix1 (chan m hO t))).toNat * 1 + 1 * 0 = r.val; omega
  | ⟨1, _⟩ =>
    show ((cfgM m hO).win 2).index t (1 : Fin 3) * 1 + 1 * 0 = 0
    rw [hi]; show 0 * 1 + 1 * 0 = 0; omega
  | ⟨2, _⟩ =>
    show ((cfgM m hO).win 2).index t (2 : Fin 3) * 256 + 1 * o.val = o.val
    rw [hi]; show 0 * 256 + 1 * o.val = o.val; omega

/-- What the run leaves in the output's staging buffer is the body's one stored value, of the three blocks it loaded
    (at any float instance). -/
theorem piece {F : FTy → Type} [FloatOps F] (c : Dev nD) (i : grid0.Coords) (arg3 : Memref sig .tc .vmem S1x2048x256 .f32) (harg3 : arg3.IsWhole) (arg4 : Memref sig .tc .vmem S1x256x256 .f32) (harg4 : arg4.IsWhole) (arg5 : Memref sig .tc .vmem S1x1x256 .f32) (harg5 : arg5.IsWhole) (arg6 : Memref sig .tc .vmem S1x2048x256 .f32) (harg6 : arg6.IsWhole)
    (x0 : Vec F S1x2048x256 .f32) (x1 : Vec F S1x256x256 .f32) (x2 : Vec F S1x1x256 .f32) (xt0 : TbBuf0 (F := F) c tbM0_0) (xt1 : TbBuf0 (F := F) c tbM0_1) :
    out0_A_3 c i arg3 harg3 arg4 harg4 arg5 harg5 arg6 harg6 x0 x1 x2 xt0 xt1 = k0_pay1 x0 x1 x2 := by
  unfold out0_A_3
  rw [View.read_writes_eq_canon _ _ _ (cover0_A_3 c i arg3 harg3 arg4 harg4 arg5 harg5 arg6 harg6 x0 x1 x2 xt0 xt1)]
  unfold kernelRun0_A
  dsimp only
  sl_unfold_words
  rw [View.canon_unit_zero hz3]
  simp only [View.readAt_eq_ld, Memref.IsWhole.read_unread, View.ld_unit_zero (S := S1x2048x256) hz3, View.ld_unit_zero (S := S1x256x256) hz3, View.ld_unit_zero (S := S1x1x256) hz3]

/-- An index of a [1, a, b] block has leading coordinate 0. -/
theorem eq_ix3_0 (j : S1x2048x256.Idx) : j = ix3 0 (j 1) (j 2) := funext fun a => by
  match a with
  | ⟨0, _⟩ =>
    apply Fin.ext
    have h := (j 0).isLt
    have e : S1x2048x256.size 0 = 1 := by decide
    show (j 0).val = 0
    omega
  | ⟨1, _⟩ => rfl
  | ⟨2, _⟩ => rfl

/-- Where the result's block at point t sits in the result: channel t. -/
theorem oblk_emb (hO : Ok m) (t : Fin (cfgM m hO).N) (p : Fin 2048) (o : Fin 256) :
    (((cfgM m hO).win 3).blk t).view.emb (ix3 0 p o) = ix3 (chan m hO t) p o := by
  funext a
  apply Fin.ext
  have hi := oidx m hO t
  match a with
  | ⟨0, _⟩ =>
    show ((cfgM m hO).win 3).index t (0 : Fin 3) * 1 + 1 * 0 = t.val
    rw [hi]; show t.val * 1 + 1 * 0 = t.val; omega
  | ⟨1, _⟩ =>
    show ((cfgM m hO).win 3).index t (1 : Fin 3) * 2048 + 1 * p.val = p.val
    rw [hi]; show 0 * 2048 + 1 * p.val = p.val; omega
  | ⟨2, _⟩ =>
    show ((cfgM m hO).win 3).index t (2 : Fin 3) * 256 + 1 * o.val = o.val
    rw [hi]; show 0 * 256 + 1 * o.val = o.val; omega

/-- The block the body leaves at point t, at (0, p, o): channel t's row p of x against column o of the selected slab,
    plus entry o of the selected bias row (rows rw, rb: whatever rows the two table words at t select). -/
theorem outs_apply (hO : Ok m) (c : Dev nD) (t : Fin (cfgM m hO).N) (rw : Fin 64) (rb : Fin 32)
    (hrw : (tbl m 0 (ix1 (chan m hO t))).toNat = rw.val) (hrb : (tbl m 1 (ix1 (chan m hO t))).toNat = rb.val)
    (p : Fin 2048) (o : Fin 256) :
    (outsAt0 m hO c t : Vec Ideal S1x2048x256 .f32) (ix3 0 p o)
      = (∑ k : Fin 256, xarr m c (ix3 (chan m hO t) p k) * warr m c (ix3 rw k o)) + barr m c (ix3 rb 0 o) := by
  unfold outsAt0
  refine (congrFun (piece (F := Ideal) c (grid0.coords t) (ms0_0 m hO t) (hs0_0 m hO t) (ms0_1 m hO t) (hs0_1 m hO t)
    (ms0_2 m hO t) (hs0_2 m hO t) (ms0_3 m hO t) (hs0_3 m hO t) (xblk m hO c t) (wblk m hO c t) (bblk m hO c t)
    (tbl m 0) (tbl m 1)) (ix3 0 p o)).trans ?_
  refine (Payload.pay_apply (xblk m hO c t) (wblk m hO c t) (bblk m hO c t) p o).trans ?_
  rw [bblk_apply m hO c t rb hrb o]
  congr 1
  refine Finset.sum_congr rfl fun k _ => ?_
  rw [xblk_apply m hO c t p k, wblk_apply m hO c t rw hrw k o]

/-! ## The value -/

/-- Channel ch's model index word and bias index word (the truncation of the channel's scalar times 31), and the rows
    they select. -/
abbrev midx (c : Dev nD) : IVec S64 32 := m ((c : Thread nD τ).loc main_arg2)
abbrev bword (c : Dev nD) : IVec S64 32 :=
  fptosi (F := Ideal) 32 (mulf (F := Ideal) (shapeCast S64 (m ((c : Thread nD τ).loc main_arg1)) shapeCasts_S1x64x1_S64)
    (broadcastInDim S64 ![] bcast_S_S64 (constant (F := Ideal) S_ .f32 0x41F80000#32)))
def rowW (c : Dev nD) (ch : Fin 64) : Fin 64 := Cert.Spec.rowOf 63 (midx m c (ix1 ch))
def rowB (c : Dev nD) (ch : Fin 64) : Fin 32 := Cert.Spec.rowOf 31 (bword m c (ix1 ch))

/-- The three float arguments the result depends on, at their literal types. -/
abbrev xs (c : Dev nD) : FVec Ideal S64x2048x256 .f32 := m ((c : Thread nD τ).loc main_arg0)
abbrev ws (c : Dev nD) : FVec Ideal S64x256x256 .f32 := m ((c : Thread nD τ).loc main_arg3)
abbrev bs (c : Dev nD) : FVec Ideal S32x256 .f32 := m ((c : Thread nD τ).loc main_arg4)

/-- THE VALUE the result array ends with: the specification at the argument arrays and those rows. -/
abbrev val (c : Dev nD) : Buf (Elt Ideal) ((c : Thread nD τ).loc main_v7) :=
  Cert.Spec.G (xs m c) (ws m c) (bs m c) (rowW m c) (rowB m c)

/-- The table words at point t, read unsigned, are those rows (there is one device). -/
theorem hrowW (hO : Ok m) (c : Dev nD) (t : Fin (cfgM m hO).N) :
    (tbl m 0 (ix1 (chan m hO t))).toNat = (rowW m c (chan m hO t)).val := by
  obtain rfl : c = 0 := Subsingleton.elim _ _
  exact Tables.tbl0_word m (ix1 (chan m hO t))
theorem hrowB (hO : Ok m) (c : Dev nD) (t : Fin (cfgM m hO).N) :
    (tbl m 1 (ix1 (chan m hO t))).toNat = (rowB m c (chan m hO t)).val := by
  obtain rfl : c = 0 := Subsingleton.elim _ _
  exact Tables.tbl1_word m (ix1 (chan m hO t))

/-- The bias array the region reads, at (r, 0, o), is the bias argument at (r, o). -/
theorem barr_apply (c : Dev nD) (r : Fin 32) (o : Fin 256) :
    barr m c (ix3 r 0 o) = bs m c (ix2 r o) := by
  refine (congrFun (Tables.V_main_v6 m c) (ix3 r 0 o)).trans ?_
  exact shapeCast_apply _ shapeCasts_S32x256_S32x1x256 (ix3 r 0 o) (ix2 r o)
    (by rw [Shape.rowMajor_val_two, Shape.rowMajor_val_three]; show r.val * 256 + o.val = (r.val * 1 + 0) * 256 + o.val; omega)

/-- WHAT POINT t WRITES BACK is block t of the value. -/
theorem flushed_eq (hO : Ok m) (c : Dev nD) (t : Fin (cfgM m hO).N) (_ : ((cfgM m hO).win 3).flush t = true) :
    (dats m hO 0 c).flushed 3 t = (((cfgM m hO).win 3).blk t).view.read (Elt Ideal) (val m c) := by
  show ((cfgM m hO).win 3).cut ((cfgM m hO).grid.coords t) ((dats m hO 0 c).after 3 t) = _
  rw [after0_3]
  funext j
  revert j
  show ∀ j : S1x2048x256.Idx, (outsAt0 m hO c t : Vec Ideal S1x2048x256 .f32) j
    = val m c ((((cfgM m hO).win 3).blk t).view.emb j)
  intro j
  obtain ⟨p, o, rfl⟩ : ∃ (p : Fin 2048) (o : Fin 256), j = ix3 0 p o := ⟨j 1, j 2, eq_ix3_0 j⟩
  rw [oblk_emb m hO t p o]
  refine (outs_apply m hO c t (rowW m c (chan m hO t)) (rowB m c (chan m hO t)) (hrowW m hO c t) (hrowB m hO c t) p o).trans ?_
  show _ = (∑ k : Fin 256, xs m c (ix3 (chan m hO t) p k) * ws m c (ix3 (rowW m c (chan m hO t)) k o))
    + bs m c (ix2 (rowB m c (chan m hO t)) o)
  have e0 : xarr m c = xs m c := V_main_arg0 m c
  have e3 : warr m c = ws m c := V_main_arg3 m c
  rw [barr_apply, e0, e3]

/-- Every index of the result is in the block of the point its channel names, and every point writes back. -/
theorem cover (hO : Ok m) (i : S64x2048x256.Idx) :
    ∃ t : Fin (cfgM m hO).N, ((cfgM m hO).win 3).flush t = true ∧ i ∈ (((cfgM m hO).win 3).blk t).view.set := by
  have hN : grid0.N = 64 := N_0
  have ht : (i 0).val < (cfgM m hO).N := by show (i 0).val < grid0.N; rw [hN]; exact (i 0).isLt
  refine ⟨⟨(i 0).val, ht⟩, flush0_3 (adm m hO) _, ?_⟩
  have hset : (((cfgM m hO).win 3).blk ⟨(i 0).val, ht⟩).view.set = (((cfgM m hO).win 3).rect ⟨(i 0).val, ht⟩).set :=
    View.set_slice_whole main_v7 _
  refine Eq.mpr (congrArg (fun s => i ∈ s) hset) ?_
  refine Rect.mem_set_unit.mpr fun a => ?_
  have hi := oidx m hO ⟨(i 0).val, ht⟩
  match a with
  | ⟨0, _⟩ =>
    show ((cfgM m hO).win 3).index ⟨(i 0).val, ht⟩ (0 : Fin 3) * 1 ≤ (i 0).val
      ∧ (i 0).val < ((cfgM m hO).win 3).index ⟨(i 0).val, ht⟩ (0 : Fin 3) * 1 + 1
    rw [hi]; show (i 0).val * 1 ≤ (i 0).val ∧ (i 0).val < (i 0).val * 1 + 1; omega
  | ⟨1, _⟩ =>
    show ((cfgM m hO).win 3).index ⟨(i 0).val, ht⟩ (1 : Fin 3) * 2048 ≤ (i 1).val
      ∧ (i 1).val < ((cfgM m hO).win 3).index ⟨(i 0).val, ht⟩ (1 : Fin 3) * 2048 + 2048
    rw [hi]; have h1 : (i 1).val < 2048 := (i 1).isLt; show 0 * 2048 ≤ (i 1).val ∧ (i 1).val < 0 * 2048 + 2048; omega
  | ⟨2, _⟩ =>
    show ((cfgM m hO).win 3).index ⟨(i 0).val, ht⟩ (2 : Fin 3) * 256 ≤ (i 2).val
      ∧ (i 2).val < ((cfgM m hO).win 3).index ⟨(i 0).val, ht⟩ (2 : Fin 3) * 256 + 256
    rw [hi]; have h2 : (i 2).val < 256 := (i 2).isLt; show 0 * 256 ≤ (i 2).val ∧ (i 2).val < 0 * 256 + 256; omega

/-- THE RESULT ARRAY after the run is the value. -/
theorem final (hO : Ok m) (c : Dev nD) : (dats m hO 0 c).arrAt 3 (cfgM m hO).N = val m c :=
  (dats m hO 0 c).arrAt_eq_of_cover 3 (val m c) (flushed_eq m hO c) (cover m hO)

/-- THE KERNEL'S RUN with its result named: every weakly fair execution ends with the result array at the value and
    the argument arrays unchanged. -/
theorem run : θ_run defs (onTc (τ := τ) (main (F := Ideal))) ⟨m, fun _ => 0, ρ⟩ fun r => ∀ c : Dev nD,
      r.2.mem ((c.tc : Thread nD τ).loc main_v7) = val m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have hO : Ok m := Tables.ok m
  refine (θ_run defs _ _).mono (fun r h c => ?_) (run_main m ρ hO)
  exact ⟨((h c).1 3).trans (final m hO c),
    ((h c).1 0).trans (((dats m hO 0 c).arrAt_in 0 rfl _).trans ((A_eq m hO c 0).trans (V_main_arg0 m c))),
    ((h c).2 main_arg1 (by decide : main_arg1 ∈ Pipeline.restRefs sig spec0)).trans (V_main_arg1 m c),
    ((h c).2 main_arg2 (by decide : main_arg2 ∈ Pipeline.restRefs sig spec0)).trans (V_main_arg2 m c),
    ((h c).1 1).trans (((dats m hO 0 c).arrAt_in 1 rfl _).trans ((A_eq m hO c 1).trans (V_main_arg3 m c))),
    ((h c).2 main_arg4 (by decide : main_arg4 ∈ Pipeline.restRefs sig spec0)).trans (V_main_arg4 m c)⟩

end Cert.KernelIdeal.KValue

end
-- ==== Proof.RefSide.lean ====
/-
  The reference program, read at one element of its result.

  The reference selects the weight slab and the bias row of channel c by array indexing with an index word: a
  negative word first has the table's length added to it (wrap-around indexing), and the gather that follows reads
  the word signed and clamps it into the table. For a word that is signed-nonnegative the wrap-around step does
  nothing, so the row read is the word clamped into the table: Spec.rowOf. Here the two gathers are read at an index
  (the slab axis of the table at the clamped start word, the other axes at the result's own coordinates), the start
  words are computed under the sign hypotheses, and the batched product plus the broadcast bias row is identified
  with Spec.G element by element.
-/
import proofs.«413950_j81741817577961_3_alg».proof.Proof.Gen.ReferenceIdeal.Read
import proofs.«413950_j81741817577961_3_alg».proof.Proof.Spec

noncomputable section

namespace Cert.RefSide

open Idealize.ShloMosaic Idealize.ShloMosaic.ValueIdx Cert.ReferenceIdeal Cert.ReferenceIdeal.Gen

/-! ## The two gathers at an index -/

/-- The weight gather at result index j: on the slab axis (collapsed, start-indexed) the table is read at the start
    word of row (j 0), taken signed and clamped into [0, 63]; on the two offset axes at j's own coordinates. -/
theorem gatherW_at {α : Type} (x : S64x256x256.Idx → α) (idx : IVec S64x1 32) (j : S64x256x256.Idx) :
    Host.gather gather_S64x256x256_S64x1_S64x256x256_12_0_n_n_0_1_1256256 x idx j
      = x (ix3 (Cert.Spec.rowOf 63 (idx (ix2 (j 0) 0))) (j 1) (j 2)) := by
  unfold Host.gather
  congr 1
  funext a
  apply Fin.ext
  match a with
  | ⟨0, _⟩ =>
    -- the slab axis: no batching or offset coordinate, the start is the clamped word
    simp [GatherDims.operandIdx, GatherDims.start, GatherDims.offCoord, GatherDims.batchCoord,
      gather_S64x256x256_S64x1_S64x256x256_12_0_n_n_0_1_1256256, GatherDims.sKept, Shape.kept]
    show min (idx _).toInt.toNat 63 = min (idx (ix2 (j 0) 0)).toInt.toNat 63
    congr 3
    congr 1
    -- the word is read at (j 0, 0): the result's one batch axis gives the row, the index vector has one component
    funext b
    apply Fin.ext
    match b with
    | ⟨0, _⟩ =>
      simp [GatherDims.siIdx, GatherDims.siCoord, GatherDims.siKept, GatherDims.batchDims, Shape.kept]
      rfl
    | ⟨1, _⟩ =>
      simp [GatherDims.siIdx]
  | ⟨1, _⟩ =>
    -- first offset axis: start 0, the result's coordinate 1
    simp [GatherDims.operandIdx, GatherDims.start, GatherDims.offCoord, GatherDims.batchCoord,
      gather_S64x256x256_S64x1_S64x256x256_12_0_n_n_0_1_1256256, GatherDims.sKept, Shape.kept]
    rfl
  | ⟨2, _⟩ =>
    -- second offset axis: start 0, the result's coordinate 2
    simp [GatherDims.operandIdx, GatherDims.start, GatherDims.offCoord, GatherDims.batchCoord,
      gather_S64x256x256_S64x1_S64x256x256_12_0_n_n_0_1_1256256, GatherDims.sKept, Shape.kept]
    rfl

/-- The bias gather at result index j: the row axis of the table at the start word of row (j 0), signed and clamped
    into [0, 31]; the column axis at j's own column. -/
theorem gatherB_at {α : Type} (x : S32x256.Idx → α) (idx : IVec S64x1 32) (j : S64x256.Idx) :
    Host.gather gather_S32x256_S64x1_S64x256_1_0_n_n_0_1_1256 x idx j
      = x (ix2 (Cert.Spec.rowOf 31 (idx (ix2 (j 0) 0))) (j 1)) := by
  unfold Host.gather
  congr 1
  funext a
  apply Fin.ext
  match a with
  | ⟨0, _⟩ =>
    simp [GatherDims.operandIdx, GatherDims.start, GatherDims.offCoord, GatherDims.batchCoord,
      gather_S32x256_S64x1_S64x256_1_0_n_n_0_1_1256, GatherDims.sKept, Shape.kept]
    show min (idx _).toInt.toNat 31 = min (idx (ix2 (j 0) 0)).toInt.toNat 31
    congr 3
    congr 1
    funext b
    apply Fin.ext
    match b with
    | ⟨0, _⟩ =>
      simp [GatherDims.siIdx, GatherDims.siCoord, GatherDims.siKept, GatherDims.batchDims, Shape.kept]
      rfl
    | ⟨1, _⟩ =>
      simp [GatherDims.siIdx]
  | ⟨1, _⟩ =>
    simp [GatherDims.operandIdx, GatherDims.start, GatherDims.offCoord, GatherDims.batchCoord,
      gather_S32x256_S64x1_S64x256_1_0_n_n_0_1_1256, GatherDims.sKept, Shape.kept]
    rfl

/-- The weight gather at (c, k, o). -/
theorem gatherW_apply {α : Type} (x : S64x256x256.Idx → α) (idx : IVec S64x1 32) (c : Fin 64) (k o : Fin 256) :
    Host.gather gather_S64x256x256_S64x1_S64x256x256_12_0_n_n_0_1_1256256 x idx (ix3 c k o)
      = x (ix3 (Cert.Spec.rowOf 63 (idx (ix2 c 0))) k o) :=
  gatherW_at x idx (ix3 c k o)

/-- The bias gather at (c, o). -/
theorem gatherB_apply {α : Type} (x : S32x256.Idx → α) (idx : IVec S64x1 32) (c : Fin 64) (o : Fin 256) :
    Host.gather gather_S32x256_S64x1_S64x256_1_0_n_n_0_1_1256 x idx (ix2 c o)
      = x (ix2 (Cert.Spec.rowOf 31 (idx (ix2 c 0))) o) :=
  gatherB_at x idx (ix2 c o)

/-! ## The start words -/

/-- The weight gather's start word of row c: the model word of channel c, since wrap-around indexing leaves a
    nonnegative word alone. -/
theorem startW (x2 : (⟨S64, .i32⟩ : BufTy).Contents (Elt Ideal))
    (h2 : ∀ c : Fin 64, IntOp.cmpi .sge (x2 (ix1 c)) 0#32 = 1#1) (c : Fin 64) :
    Read.val_main_v9 (F := Ideal) x2 (ix2 c 0) = x2 (ix1 c) := by
  have e : Read.idx_main_v9 (ix2 c 0) = ix1 c := by
    funext a; match a with | ⟨0, _⟩ => rfl
  rw [Read.val_main_v9_apply, e, Read.val_main_v8_apply, Read.val_main_v5_apply, Read.val_main_v7_apply,
    Read.val_main_v4_apply, Read.val_main_c_apply, Read.val_main_v6_apply, Read.val_main_c_0_apply]
  exact Cert.Spec.wrap_of_nonneg _ _ (h2 c)

/-- The bias gather's start word of row c: the bias word of channel c. -/
theorem startB (x1 : (⟨S1x64x1, .f32⟩ : BufTy).Contents (Elt Ideal))
    (hb : ∀ c : Fin 64, IntOp.cmpi .sge (Read.val_main_v3 (F := Ideal) x1 (ix1 c)) 0#32 = 1#1) (c : Fin 64) :
    Read.val_main_v16 (F := Ideal) x1 (ix2 c 0) = Read.val_main_v3 (F := Ideal) x1 (ix1 c) := by
  have e : Read.idx_main_v16 (ix2 c 0) = ix1 c := by
    funext a; match a with | ⟨0, _⟩ => rfl
  rw [Read.val_main_v16_apply, e, Read.val_main_v15_apply, Read.val_main_v12_apply, Read.val_main_v14_apply,
    Read.val_main_v11_apply, Read.val_main_c_1_apply, Read.val_main_v13_apply, Read.val_main_c_2_apply]
  exact Cert.Spec.wrap_of_nonneg _ _ (hb c)

/-! ## The gathered operands at an index -/

/-- The gathered weights at (c, k, o): the table's slab selected by channel c's model word. -/
theorem v10_apply (x2 : (⟨S64, .i32⟩ : BufTy).Contents (Elt Ideal)) (x3 : (⟨S64x256x256, .f32⟩ : BufTy).Contents (Elt Ideal))
    (h2 : ∀ c : Fin 64, IntOp.cmpi .sge (x2 (ix1 c)) 0#32 = 1#1) (c : Fin 64) (k o : Fin 256) :
    Read.val_main_v10 (F := Ideal) x2 x3 (ix3 c k o) = x3 (ix3 (Cert.Spec.rowOf 63 (x2 (ix1 c))) k o) := by
  unfold Read.val_main_v10
  rw [gatherW_apply, startW x2 h2 c]

/-- The gathered bias at (c, o): the table's row selected by channel c's bias word. -/
theorem v17_apply (x1 : (⟨S1x64x1, .f32⟩ : BufTy).Contents (Elt Ideal)) (x4 : (⟨S32x256, .f32⟩ : BufTy).Contents (Elt Ideal))
    (hb : ∀ c : Fin 64, IntOp.cmpi .sge (Read.val_main_v3 (F := Ideal) x1 (ix1 c)) 0#32 = 1#1) (c : Fin 64) (o : Fin 256) :
    Read.val_main_v17 (F := Ideal) x1 x4 (ix2 c o)
      = x4 (ix2 (Cert.Spec.rowOf 31 (Read.val_main_v3 (F := Ideal) x1 (ix1 c))) o) := by
  unfold Read.val_main_v17
  rw [gatherB_apply, startB x1 hb c]

/-! ## The result -/

/-- The specification's array at (c, p, o). -/
theorem G_at (x : (⟨3, ![64, 2048, 256]⟩ : Shape).Idx → EReal) (W : (⟨3, ![64, 256, 256]⟩ : Shape).Idx → EReal)
    (B : (⟨2, ![32, 256]⟩ : Shape).Idx → EReal) (rw : Fin 64 → Fin 64) (rb : Fin 64 → Fin 32)
    (c : Fin 64) (p : Fin 2048) (o : Fin 256) :
    Cert.Spec.G x W B rw rb (ix3 c p o) = (∑ k : Fin 256, x (ix3 c p k) * W (ix3 (rw c) k o)) + B (ix2 (rb c) o) := rfl

/-- The reference's result is the specification's array, with the rows the index words select. -/
theorem ref_eq (x0 : (⟨S64x2048x256, .f32⟩ : BufTy).Contents (Elt Ideal)) (x1 : (⟨S1x64x1, .f32⟩ : BufTy).Contents (Elt Ideal)) (x2 : (⟨S64, .i32⟩ : BufTy).Contents (Elt Ideal)) (x3 : (⟨S64x256x256, .f32⟩ : BufTy).Contents (Elt Ideal)) (x4 : (⟨S32x256, .f32⟩ : BufTy).Contents (Elt Ideal))
    (h2 : ∀ c : Fin 64, IntOp.cmpi .sge (x2 (ix1 c)) 0#32 = 1#1)
    (hb : ∀ c : Fin 64, IntOp.cmpi .sge (Cert.ReferenceIdeal.Read.val_main_v3 (F := Ideal) x1 (ix1 c)) 0#32 = 1#1) :
    Cert.ReferenceIdeal.Read.val_main_v21 (F := Ideal) x0 x1 x2 x3 x4
      = Cert.Spec.G x0 x3 x4 (fun c => Cert.Spec.rowOf 63 (x2 (ix1 c))) (fun c => Cert.Spec.rowOf 31 (Cert.ReferenceIdeal.Read.val_main_v3 (F := Ideal) x1 (ix1 c))) := by
  funext i
  -- the result index in coordinates: channel c, point p, output feature o
  obtain ⟨c, p, o, rfl⟩ : ∃ (c : Fin 64) (p : Fin 2048) (o : Fin 256), i = ix3 c p o := ⟨i 0, i 1, i 2, eq_ix3 i⟩
  -- the operand indices of the product and of the two broadcasts, in coordinates
  have el : ∀ k : Fin 256, Read.lidx_main_v18 (ix3 c p o) k = ix3 c p k := fun k => by
    funext a; match a with | ⟨0, _⟩ => rfl | ⟨1, _⟩ => rfl | ⟨2, _⟩ => rfl
  have er : ∀ k : Fin 256, Read.ridx_main_v18 (ix3 c p o) k = ix3 c k o := fun k => by
    funext a; match a with | ⟨0, _⟩ => rfl | ⟨1, _⟩ => rfl | ⟨2, _⟩ => rfl
  have eb : Read.idx_main_v19 (Read.idx_main_v20 (ix3 c p o)) = ix2 c o := by
    funext a; match a with | ⟨0, _⟩ => rfl | ⟨1, _⟩ => rfl
  rw [Read.val_main_v21_apply, Read.val_main_v18_apply, Read.val_main_v20_apply, Read.val_main_v19_apply, eb,
    v17_apply x1 x4 hb, G_at]
  -- at the ideal instance the sum of two elements is their sum in the extended reals
  show (∑ k : Fin 256, _) + _ = (∑ k : Fin 256, _) + _
  congr 1
  refine Finset.sum_congr rfl fun k _ => ?_
  rw [el, er, v10_apply x2 x3 h2]

end Cert.RefSide

end
-- ==== Proof.PreDecode.lean ====
/-
  The precondition, read back. The printed predicate is a conjunction of five "all" reductions joined by "and":
  three say the floating-point arrays are finite, and the last two say that every selecting word is non-negative
  when read signed: the model index words themselves, and the bias index words, which are computed from the
  per-channel scalars as the truncation of t * 31. If the predicate is 1, each conjunct is 1, and an "all" that is 1
  met a 1 at every position; only the two facts about the selecting words are kept.
-/
import proofs.«413950_j81741817577961_3_alg».proof.Proof.Gen.Pre_finite_inputs
import Idealize.ShloMosaic.Lib.ReduceAll
import Idealize.ShloMosaic.Lib.ValueIdx

namespace Cert.PreDecode

open Idealize.ShloMosaic Idealize.ShloMosaic.ValueIdx Cert.Pre_finite_inputs

variable {F : FTy → Type} [FloatOps F]

/-- A rank-0 array has exactly one position. -/
local instance : Subsingleton S_.Idx := ⟨fun a b => funext fun d => d.elim0⟩

/-- If the predicate holds, every model index word and every bias index word is non-negative (signed). -/
theorem idx_nonneg (x0 : FVec F S64x2048x256 .f32) (x1 : FVec F S1x64x1 .f32) (x2 : IVec S64 32)
    (x3 : FVec F S64x256x256 .f32) (x4 : FVec F S32x256 .f32)
    (h : Cert.Pre_finite_inputs.fn (F := F) x0 x1 x2 x3 x4 = fun _ => 1#1) :
    (∀ c : Fin 64, IntOp.cmpi .sge (x2 (ix1 c)) 0#32 = 1#1)
    ∧ (∀ c : Fin 64, IntOp.cmpi .sge ((fptosi 32 (mulf (shapeCast S64 x1 Facts.shapeCasts_S1x64x1_S64)
          (broadcastInDim S64 ![] Facts.bcast_S_S64 (constant S_ .f32 0x41F80000#32))) : IVec S64 32) (ix1 c)) 0#32
        = 1#1) := by
  have h0 := congrFun h ix0
  dsimp only [fn, fn_part1] at h0
  -- the outermost "and": everything before, and the bias words' "all"
  obtain ⟨h22, h29⟩ := IntOp.andi_eq_one.1 h0
  -- the next one: everything before, and the model words' "all"
  obtain ⟨_, h21⟩ := IntOp.andi_eq_one.1 h22
  refine ⟨fun c => ?_, fun c => ?_⟩
  · exact Host.reduce_andi_all _ _ _ _ _ h21 (ix1 c)
  · exact Host.reduce_andi_all _ _ _ _ _ h29 (ix1 c)

end Cert.PreDecode
-- ==== Proof.lean ====
/-
  The certificate's proof: the kernel (a per-channel batched linear map whose weight slab and bias row are selected
  through two prefetched tables of clipped index words) against its array-indexing reference, over the extended reals.

  Precondition as stated here: every float input finite, every model index word non-negative, and every bias index
  word (the truncation of the channel's scalar times 31) non-negative, all signed. The last two are what the claim
  needs: array indexing adds the table's length to a NEGATIVE word where the kernel clips it to 0, so at a negative
  word the two programs read different rows; at every non-negative word both read the word clamped into the table,
  an overflow past the end included.

  The frames. A clipped word always names a row of its table, so the pipeline's side condition on the tables holds for
  every input (Tables.ok), and the two kernels' frames follow from it; the reference's frame is its run with the result
  dropped. The idealization rewrote nothing, so there is nothing to preserve.

  The value. The kernel's result array ends holding Spec.G of the argument arrays at the rows the index words select
  (KernelValue.run, with no use of the precondition); the reference's result is the same function once wrap-around
  indexing is seen to leave non-negative words alone (RefSide.ref_eq), which is where the precondition's two index
  conjuncts are used (PreDecode.idx_nonneg). Finiteness of the float inputs is never needed: both sides are the same
  sums of the same products in the same order.
-/
import proofs.«413950_j81741817577961_3_alg».proof.Defs
import proofs.«413950_j81741817577961_3_alg».proof.Proof.Gen.Kernel
import proofs.«413950_j81741817577961_3_alg».proof.Proof.Gen.Kernel.Skeleton
import proofs.«413950_j81741817577961_3_alg».proof.Proof.Gen.Kernel.Launch
import proofs.«413950_j81741817577961_3_alg».proof.Proof.Gen.Kernel.Points
import proofs.«413950_j81741817577961_3_alg».proof.Proof.Gen.Kernel.Frame
import proofs.«413950_j81741817577961_3_alg».proof.Proof.Gen.KernelIdeal
import proofs.«413950_j81741817577961_3_alg».proof.Proof.Gen.KernelIdeal.Skeleton
import proofs.«413950_j81741817577961_3_alg».proof.Proof.Gen.KernelIdeal.Launch
import proofs.«413950_j81741817577961_3_alg».proof.Proof.Gen.KernelIdeal.Points
import proofs.«413950_j81741817577961_3_alg».proof.Proof.Gen.KernelIdeal.Frame
import proofs.«413950_j81741817577961_3_alg».proof.Proof.Gen.ReferenceIdeal
import proofs.«413950_j81741817577961_3_alg».proof.Proof.Gen.Pre_finite_inputs
import proofs.«413950_j81741817577961_3_alg».proof.Proof.Gen.ReferenceIdeal.Run
import proofs.«413950_j81741817577961_3_alg».proof.Proof.Gen.ReferenceIdeal.Read
import proofs.«413950_j81741817577961_3_alg».proof.Proof.Spec
import proofs.«413950_j81741817577961_3_alg».proof.Proof.TablesBits
import proofs.«413950_j81741817577961_3_alg».proof.Proof.TablesIdeal
import proofs.«413950_j81741817577961_3_alg».proof.Proof.KernelValue
import proofs.«413950_j81741817577961_3_alg».proof.Proof.RefSide
import proofs.«413950_j81741817577961_3_alg».proof.Proof.PreDecode
import Idealize.ShloMosaic.Adequacy
import Idealize.ShloMosaic.Init

noncomputable section

namespace Cert.Proof

open Idealize.ShloMosaic Idealize.SL.Sem

/-- The word-level kernel runs and keeps its arguments: its tables' words are rows of their tables for every input. -/
theorem frame_k : Cert.frame_Kernel := fun m ρ _ => Cert.Kernel.Gen.frame m ρ (Cert.Kernel.Tables.ok m)

/-- The same for the idealized kernel. -/
theorem frame_ki : Cert.frame_KernelIdeal := fun m ρ _ => Cert.KernelIdeal.Gen.frame m ρ (Cert.KernelIdeal.Tables.ok m)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From agreeing arguments both programs end with the specification's array at the rows the index words select:
    the kernel for every input, the reference because the precondition makes every index word non-negative. -/
theorem algebraic : Cert.algebraic_KernelIdeal_ReferenceIdeal := by
  intro m ρ m' ρ' hpre hagree
  refine ⟨fun c => Cert.KernelIdeal.KValue.val m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h2, hb⟩ := Cert.PreDecode.idx_nonneg _ _ _ _ _ (hpre c)
  rw [(hagree c).1, (hagree c).2.1, (hagree c).2.2.1, (hagree c).2.2.2.1, (hagree c).2.2.2.2]
  exact (Cert.ReferenceIdeal.Read.val_main_v21_eq (F := Ideal) _ _ _ _ _).trans (Cert.RefSide.ref_eq _ _ _ _ _ h2 hb)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
